-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S128 : Shape := ⟨1, ![128]⟩
abbrev S256x128 : Shape := ⟨2, ![256, 128]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S64x4096 .f32) (main_arg1 : FVec F S128 .f32) (main_arg2 : FVec F S256x128 .f32) (main_arg3 : FVec F S256x128 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S64x4096 : Shape := ⟨2, ![64, 4096]⟩
abbrev S128 : Shape := ⟨1, ![128]⟩
abbrev S256x128 : Shape := ⟨2, ![256, 128]⟩
abbrev S262144 : Shape := ⟨1, ![262144]⟩
abbrev S128x256 : Shape := ⟨2, ![128, 256]⟩
abbrev S262144x256 : Shape := ⟨2, ![262144, 256]⟩
abbrev S4096 : Shape := ⟨1, ![4096]⟩
abbrev S4096x256 : Shape := ⟨2, ![4096, 256]⟩
abbrev S4096x1 : Shape := ⟨2, ![4096, 1]⟩
abbrev S1x128 : Shape := ⟨2, ![1, 128]⟩
abbrev S4096x128 : Shape := ⟨2, ![4096, 128]⟩
abbrev S64x4096x256 : Shape := ⟨3, ![64, 4096, 256]⟩

abbrev nBuf : Space → Nat
  | .hbm => 11
  | .vmem => 7
  | .smem => 0
  | _ => 0

abbrev bufTy : (tb : Table) → Fin (tcTables nBuf tb) → BufTy
  | .hbm, ⟨0, _⟩ => ⟨S64x4096, .f32⟩
  | .hbm, ⟨1, _⟩ => ⟨S128, .f32⟩
  | .hbm, ⟨2, _⟩ => ⟨S256x128, .f32⟩
  | .hbm, ⟨3, _⟩ => ⟨S256x128, .f32⟩
  | .hbm, ⟨4, _⟩ => ⟨S262144, .f32⟩
  | .hbm, ⟨5, _⟩ => ⟨S128x256, .f32⟩
  | .hbm, ⟨6, _⟩ => ⟨S128x256, .bf16⟩
  | .hbm, ⟨7, _⟩ => ⟨S128x256, .f32⟩
  | .hbm, ⟨8, _⟩ => ⟨S128x256, .bf16⟩
  | .hbm, ⟨9, _⟩ => ⟨S262144x256, .f32⟩
  | .hbm, ⟨10, _⟩ => ⟨S64x4096x256, .f32⟩
  | .local _ .vmem, ⟨0, _⟩ => ⟨S4096, .f32⟩
  | .local _ .vmem, ⟨1, _⟩ => ⟨S4096, .f32⟩
  | .local _ .vmem, ⟨2, _⟩ => ⟨S128, .f32⟩
  | .local _ .vmem, ⟨3, _⟩ => ⟨S128x256, .bf16⟩
  | .local _ .vmem, ⟨4, _⟩ => ⟨S128x256, .bf16⟩
  | .local _ .vmem, ⟨5, _⟩ => ⟨S4096x256, .f32⟩
  | .local _ .vmem, ⟨6, _⟩ => ⟨S4096x256, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x4096_S262144 : S64x4096.ShapeCasts S262144
  transposes_S256x128_S128x256_1_0 : S256x128.Transposes [1, 0] S128x256
  bitsLt_bf16_f32 : FTy.bits .bf16 < FTy.bits .f32
  inb_S4096_S4096_0 : ∀ a, (![0] : Fin 1 → Nat) a + S4096.size a ≤ S4096.size a
  h_S4096 : 0 < S4096.numel
  shapeCasts_S4096_S4096 : S4096.ShapeCasts S4096
  inb_S128_S128_0 : ∀ a, (![0] : Fin 1 → Nat) a + S128.size a ≤ S128.size a
  h_S128 : 0 < S128.numel
  shapeCasts_S4096_S4096x1 : S4096.ShapeCasts S4096x1
  shapeCasts_S128_S1x128 : S128.ShapeCasts S1x128
  broadcasts_S4096x1_S4096x128 : S4096x1.Broadcasts S4096x128
  broadcasts_S1x128_S4096x128 : S1x128.Broadcasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S4096x256_S4096x256_0_0 : ∀ a, (![0, 0] : Fin 2 → Nat) a + S4096x256.size a ≤ S4096x256.size a
  h_S4096x256 : 0 < S4096x256.numel
  shapeCasts_S262144x256_S64x4096x256 : S262144x256.ShapeCasts S64x4096x256
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S262144.size a
  hwx0_0 : ∀ i : grid0.Coords, EltTy.bits .f32 = 32 ∨ (Rect.block (s := S262144) S4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S262144x256.size a
  hwx0_4 : ∀ i : grid0.Coords, EltTy.bits .f32 = 32 ∨ (Rect.block (s := S262144x256) S4096x256.size (cc0_transform_4 i) (hinb0_4 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_v0) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x4096 : Shape := ⟨2, ![64, 4096]⟩
abbrev S128 : Shape := ⟨1, ![128]⟩
abbrev S256x128 : Shape := ⟨2, ![256, 128]⟩
abbrev S64x4096x1 : Shape := ⟨3, ![64, 4096, 1]⟩
abbrev S_ : Shape := ⟨0, ![]⟩
abbrev S1x1x128 : Shape := ⟨3, ![1, 1, 128]⟩
abbrev S64x4096x128 : Shape := ⟨3, ![64, 4096, 128]⟩
abbrev S64x4096x256 : Shape := ⟨3, ![64, 4096, 256]⟩

abbrev nBuf : Space → Nat
  | .hbm => 17
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S128, .f32⟩
  | .hbm, ⟨2, _⟩ => ⟨S256x128, .f32⟩
  | .hbm, ⟨3, _⟩ => ⟨S256x128, .f32⟩
  | .hbm, ⟨4, _⟩ => ⟨S64x4096x1, .f32⟩
  | .hbm, ⟨5, _⟩ => ⟨S_, .f32⟩
  | .hbm, ⟨6, _⟩ => ⟨S64x4096x1, .f32⟩
  | .hbm, ⟨7, _⟩ => ⟨S64x4096x1, .f32⟩
  | .hbm, ⟨8, _⟩ => ⟨S1x1x128, .f32⟩
  | .hbm, ⟨9, _⟩ => ⟨S64x4096x128, .f32⟩
  | .hbm, ⟨10, _⟩ => ⟨S64x4096x128, .f32⟩
  | .hbm, ⟨11, _⟩ => ⟨S64x4096x128, .f32⟩
  | .hbm, ⟨12, _⟩ => ⟨S64x4096x128, .f32⟩
  | .hbm, ⟨13, _⟩ => ⟨S64x4096x256, .f32⟩
  | .hbm, ⟨14, _⟩ => ⟨S64x4096x128, .f32⟩
  | .hbm, ⟨15, _⟩ => ⟨S64x4096x256, .f32⟩
  | .hbm, ⟨16, _⟩ => ⟨S64x4096x256, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S64x4096_S64x4096x1_0_1 : S64x4096.BroadcastsInDim S64x4096x1 (![0, 1] : Fin 2 → Fin S64x4096x1.rank)
  bcast_S_S64x4096x1 : S_.BroadcastsInDim S64x4096x1 (![] : Fin 0 → Fin S64x4096x1.rank)
  bcast_S128_S1x1x128_2 : S128.BroadcastsInDim S1x1x128 (![2] : Fin 1 → Fin S1x1x128.rank)
  bcast_S64x4096x1_S64x4096x128_0_1_2 : S64x4096x1.BroadcastsInDim S64x4096x128 (![0, 1, 2] : Fin 3 → Fin S64x4096x128.rank)
  bcast_S1x1x128_S64x4096x128_0_1_2 : S1x1x128.BroadcastsInDim S64x4096x128 (![0, 1, 2] : Fin 3 → Fin S64x4096x128.rank)
  dot_S64x4096x128_S256x128_S64x4096x256_2_1_01_0_n_n_wf : DotDims.WF S64x4096x128 S256x128 S64x4096x256 [2] [1] [0, 1] [0] [] []

variable [Facts₀]

def dot_S64x4096x128_S256x128_S64x4096x256_2_1_01_0_n_n : DotDims S64x4096x128 S256x128 S64x4096x256 where
  lhsContracting := [2]
  rhsContracting := [1]
  lhsNonContracting := [0, 1]
  rhsNonContracting := [0]
  lhsBatch := []
  rhsBatch := []
  wf := dot_S64x4096x128_S256x128_S64x4096x256_2_1_01_0_n_n_wf

class Facts : Prop extends Facts₀ where

variable [Facts]
-- ==== Proof.Fourier.lean ====
/-
  One entry of a Fourier feature map, on the extended reals.

  For a time value `τ`, 128 frequencies `f`, and one output channel's sine amplitudes `a` and cosine amplitudes `b`
  (one per frequency), the entry is

      Σ_k sin((w · τ) · f k) · a k  +  Σ_k cos((w · τ) · f k) · b k ,

  `w` the angular scale (the binary32 word nearest 2π, the same word in both programs, so its value is never
  needed). The phase is associated as `(w · τ) · f k`: scale the time first, then multiply by the frequency. Both
  programs compute exactly this at every output position: the kernel for one row of a 4096-row tile and one of
  256 channels, the reference for one `(batch, position, channel)` triple. Nothing here needs the inputs to be
  finite: the two sides are the same sums of the same products in the same order.
-/
import Idealize.ShloMosaic.PureOps.Ideal.Laws

noncomputable section

namespace Cert.Fourier

open Idealize.ShloMosaic

/-- The Fourier feature of time `τ` for one channel: the sine branch plus the cosine branch, each a sum over the
    128 frequencies of the trigonometric function of the phase `(w · τ) · f k` times that frequency's amplitude. -/
def entry (w τ : EReal) (f a b : Fin 128 → EReal) : EReal :=
  (∑ k : Fin 128, Ideal.sin ((w * τ) * f k) * a k) + ∑ k : Fin 128, Ideal.cos ((w * τ) * f k) * b k

end Cert.Fourier

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  The kernel body's arithmetic, read at one output position.

  The body loads a tile of 4096 time values `x0`, the 128 frequencies `x1`, and the two amplitude matrices `x2`, `x3`
  laid out frequency × channel ([128, 256]); it forms the phases `(w · x0 p) · x1 k` as a [4096, 128] matrix (the time
  column and the frequency row each broadcast), takes their sines and cosines, multiplies each by its amplitude
  matrix on the matrix unit into a zero accumulator, and adds the two products. At row `p` and channel `c` that is
  `Fourier.entry w (x0 p) x1 (x2 · c) (x3 · c)`: a matrix product into zero is the plain sum over the contracted
  axis, and the narrowing of the sines and cosines to a shorter float format is the identity on the extended reals.
-/
import proofs.«171929_j72069551227165_1_alg».proof.Proof.Gen.KernelIdeal.Skeleton
import proofs.«171929_j72069551227165_1_alg».proof.Proof.Fourier
import proofs.«171929_j72069551227165_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The matrix product's operand indices: [4096, 128] times [128, 256], contracting the 128 -/

/-- The left operand's row is the output's row. -/
theorem lhs_row (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
/-- The left operand's column is the contraction index. -/
theorem lhs_contr (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
/-- The right operand's row is the contraction index. -/
theorem rhs_contr (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
/-- The right operand's column is the output's column. -/
theorem rhs_col (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- A [4096, 128] by [128, 256] product into a zero accumulator, at row `p` and column `c`, is the sum over the 128
    contracted positions of the left operand's row entry times the right operand's column entry. -/
theorem matmul_zero_apply (l : FVec Ideal S4096x128 .bf16) (r : FVec Ideal S128x256 .bf16) (p : Fin 4096) (c : Fin 256) :
    matmul dot_S4096x128_S128x256_S4096x256_1_0_0_1_n_n none l r (constant S4096x256 .f32 0x00000000#32) (ix2 p c)
      = ∑ k : Fin 128, l (ix2 p k) * r (ix2 k c) := by
  refine (Ideal.matmul_constant_zero_apply dot_S4096x128_S128x256_S4096x256_1_0_0_1_n_n none l r (ix2 p c)).trans ?_
  rw [← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 p c) ((contrEquiv1 dot_S4096x128_S128x256_S4096x256_1_0_0_1_n_n 128 rfl rfl).symm k) = ix2 p k := funext fun a => Fin.ext (by
    match a with
    | ⟨0, _⟩ => exact lhs_row _ _
    | ⟨1, _⟩ => exact (lhs_contr _ _).trans hk)
  have er : dot_S4096x128_S128x256_S4096x256_1_0_0_1_n_n.rhsIdx (ix2 p c) ((contrEquiv1 dot_S4096x128_S128x256_S4096x256_1_0_0_1_n_n 128 rfl rfl).symm k) = ix2 k c := funext fun a => Fin.ext (by
    match a with
    | ⟨0, _⟩ => exact (rhs_contr _ _).trans hk
    | ⟨1, _⟩ => exact rhs_col _ _)
  rw [el, er]

/-! ## The phases -/

/-- The phase matrix at row `p` and frequency `k`: the scaled time of the row times the frequency. The time tile is
    reshaped to a column and broadcast along the frequencies, the frequencies to a row and broadcast along the rows. -/
theorem phase_apply (x0 : FVec Ideal S4096 .f32) (x1 : FVec Ideal S128 .f32) (p : Fin 4096) (k : Fin 128) :
    mulf (broadcastTo S4096x128 (mulf (broadcast S4096x1 (Scalar.ofBits (F := Ideal) .f32 0x40C90FDB#32))
        (shapeCast S4096x1 x0 shapeCasts_S4096_S4096x1)) broadcasts_S4096x1_S4096x128)
      (broadcastTo S4096x128 (shapeCast S1x128 x1 shapeCasts_S128_S1x128) broadcasts_S1x128_S4096x128) (ix2 p k)
      = (Ideal.ofBits .f32 0x40C90FDB#32 * x0 (ix1 p)) * x1 (ix1 k) := by
  rw [mulf_apply, LibColumn.broadcastTo_a1_ab_apply, mulf_apply, broadcast_apply, LibColumn.shapeCast_a_a1_apply,
    broadcastTo_1b_ab_apply, shapeCast_a_1a_apply]
  rfl

/-! ## The payload -/

/-- The value the body stores, at row `p` of the tile and channel `c`: the Fourier feature of the row's time for
    that channel, the amplitude matrices read down their columns. -/
theorem pay_apply (x0 : Vec Ideal S4096 .f32) (x1 : Vec Ideal S128 .f32) (x2 x3 : Vec Ideal S128x256 .bf16)
    (p : Fin 4096) (c : Fin 256) :
    k0_pay1 (F := Ideal) x0 x1 x2 x3 (ix2 p c)
      = Fourier.entry (Ideal.ofBits .f32 0x40C90FDB#32) (x0 (ix1 p)) (fun k => x1 (ix1 k)) (fun k => x2 (ix2 k c)) (fun k => x3 (ix2 k c)) := by
  unfold k0_pay1 Fourier.entry
  rw [addf_apply, matmul_zero_apply, matmul_zero_apply]
  refine congrArg₂ (· + ·) (Finset.sum_congr rfl fun k _ => ?_) (Finset.sum_congr rfl fun k _ => ?_)
  · rw [truncf_apply]
    simp only [shapeCast_self]
    show Ideal.sin _ * _ = _
    rw [phase_apply]
  · rw [truncf_apply]
    simp only [shapeCast_self]
    show Ideal.cos _ * _ = _
    rw [phase_apply]

end Cert.KernelIdeal.Body

end
-- ==== Proof.Rows.lean ====
/-
  The kernel's output array as one function of the arrays its region reads.

  The region writes a [262144, 256] array: row `r` is one flattened (batch, position) pair, column `c` one channel.
  Entry `(r, c)` is the Fourier feature of the flattened time `tf r` for channel `c`, the amplitude matrices `a`, `b`
  read frequency × channel. A tile of 4096 consecutive rows is computed from the matching 4096 times and the whole of
  the other three arrays, and its payload at `(p, c)` is the array's entry wherever row `p` of the tile sits.
-/
import proofs.«171929_j72069551227165_1_alg».proof.Proof.Payload

noncomputable section

namespace Cert.KernelIdeal.Rows

open Cert.KernelIdeal Cert.KernelIdeal.Gen Idealize.ShloMosaic Idealize.ShloMosaic.ValueIdx

/-- Every row's features: at `(r, c)`, the Fourier feature of the flattened time `tf r` for channel `c`. -/
def rowFeatures (tf : FVec Ideal S262144 .f32) (f : FVec Ideal S128 .f32) (a b : FVec Ideal S128x256 .bf16) :
    S262144x256.Idx → EReal :=
  fun i => Fourier.entry (Ideal.ofBits .f32 0x40C90FDB#32) (tf (ix1 (i 0))) (fun k => f (ix1 k))
    (fun k => a (ix2 k (i 1))) (fun k => b (ix2 k (i 1)))

/-- A tile's payload at `j` is the array's entry at `i` as soon as the tile's time at `j`'s row is the array's time at
    `i`'s row, the tile sees the frequencies as they are, and it sees `i`'s channel of both amplitude matrices at `j`'s
    column. -/
theorem tile_entry (x0 : Vec Ideal S4096 .f32) (x1 : Vec Ideal S128 .f32) (x2 x3 : Vec Ideal S128x256 .bf16)
    (tf : FVec Ideal S262144 .f32) (f : FVec Ideal S128 .f32) (a b : FVec Ideal S128x256 .bf16)
    (j : S4096x256.Idx) (i : S262144x256.Idx)
    (h0 : x0 (ix1 (j 0)) = tf (ix1 (i 0))) (h1 : ∀ k : Fin 128, x1 (ix1 k) = f (ix1 k))
    (h2 : ∀ k : Fin 128, x2 (ix2 k (j 1)) = a (ix2 k (i 1))) (h3 : ∀ k : Fin 128, x3 (ix2 k (j 1)) = b (ix2 k (i 1))) :
    k0_pay1 (F := Ideal) x0 x1 x2 x3 j = rowFeatures tf f a b i := by
  refine (congrArg (k0_pay1 (F := Ideal) x0 x1 x2 x3) (eq_ix2 j)).trans ((Body.pay_apply x0 x1 x2 x3 (j 0) (j 1)).trans ?_)
  unfold rowFeatures
  rw [h0, show (fun k : Fin 128 => x1 (ix1 k)) = (fun k => f (ix1 k)) from funext h1,
    show (fun k : Fin 128 => x2 (ix2 k (j 1))) = (fun k => a (ix2 k (i 1))) from funext h2,
    show (fun k : Fin 128 => x3 (ix2 k (j 1))) = (fun k => b (ix2 k (i 1))) from funext h3]

end Cert.KernelIdeal.Rows

end
-- ==== Proof.Tiles.lean ====
/-
  From tiles to the array: what the region leaves in its output array.

  The grid has 64 points; point `t` reads times `4096 t … 4096 t + 4095` of the flattened time array and the whole of
  the frequencies and both amplitude matrices, and writes rows `4096 t … 4096 t + 4095` of the output, all 256
  columns. What it writes is that block of `Rows.rowFeatures` of the arrays as the region finds them; the 64 blocks
  tile the 262144 rows (row `r` lies in block `r / 4096`), so after the run the array is `rowFeatures` everywhere.
-/
import proofs.«171929_j72069551227165_1_alg».proof.Proof.Gen.KernelIdeal.Frame
import proofs.«171929_j72069551227165_1_alg».proof.Proof.Rows
import Idealize.ShloMosaic.Lib.Pipeline.Value

set_option maxRecDepth 16384

noncomputable section

namespace Cert.KernelIdeal.Tiles

open Cert.KernelIdeal Cert.KernelIdeal.Gen Cert.KernelIdeal.Rows
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem off1 : (![0] : Fin 1 → Nat) = fun _ => 0 := funext fun a => by fin_cases a <;> rfl
theorem off2 : (![0, 0] : Fin 2 → Nat) = fun _ => 0 := funext fun a => by fin_cases a <;> rfl

/-- The block indices over the grid: the time window moves with the output's rows; the frequencies and both amplitude
    matrices stay at block zero; the output's column block is zero. -/
theorem block_indices : ∀ t : Fin cfg0.N, win0_0.index t (0 : Fin 1) = win0_4.index t (0 : Fin 2)
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 :=
  (by decide +kernel : ∀ t : Fin grid0.N, _)

/-- Every one of the 64 row blocks is some point's. -/
theorem block_onto : ∀ q : Fin 64, ∃ t : Fin cfg0.N, win0_4.index t = ![q.val, 0] :=
  (by decide +kernel : ∀ q : Fin 64, ∃ t : Fin grid0.N, win0_4.index t = ![q.val, 0])

/-- What point `t` writes back is block `t` of the row features of the arrays as the region finds them. -/
theorem flushed_eq (c : Dev nD) (t : Fin cfg0.N) :
    (dats m 0 c).flushed 4 t = ((cfg0.win 4).blk t).view.read (Elt Ideal)
      (rowFeatures (V m c main_v0) (V m c main_arg1) (V m c main_v2) (V m c main_v4)) := by
  show (cfg0.win 4).cut (grid0.coords t) ((dats m 0 c).after 4 t) = _
  rw [after0_4]
  unfold out0_4
  rw [View.canon_unit_zero off2]
  simp only [View.ld_unit_zero (S := S4096) off1, View.ld_unit_zero (S := S128) off1, View.ld_unit_zero (S := S128x256) off2]
  obtain ⟨e0, e1, e20, e21, e30, e31, e41⟩ := block_indices t
  funext j
  refine tile_entry (iblk m c 0 t) (iblk m c 1 t) (iblk m c 2 t) (iblk m c 3 t)
    (V m c main_v0) (V m c main_arg1) (V m c main_v2) (V m c main_v4) j (((cfg0.win 4).blk t).view.emb j)
    ?_ (fun k => ?_) (fun k => ?_) (fun k => ?_)
  · show V m c main_v0 (((cfg0.win 0).blk t).view.emb (ix1 (j 0))) = V m c main_v0 (ix1 ((((cfg0.win 4).blk t).view.emb j) 0))
    have h : ((cfg0.win 0).blk t).view.emb (ix1 (j 0)) = ix1 ((((cfg0.win 4).blk t).view.emb j) 0) := by
      funext a; apply Fin.ext
      match a with
      | ⟨0, _⟩ => show win0_0.index t (0 : Fin 1) * 4096 + 1 * (j 0).val = win0_4.index t (0 : Fin 2) * 4096 + 1 * (j 0).val; omega
    exact congrArg (V m c main_v0) h
  · show V m c main_arg1 (((cfg0.win 1).blk t).view.emb (ix1 k)) = V m c main_arg1 (ix1 k)
    have h : ((cfg0.win 1).blk t).view.emb (ix1 k) = ix1 k := by
      funext a; apply Fin.ext
      match a with
      | ⟨0, _⟩ => show win0_1.index t (0 : Fin 1) * 128 + 1 * k.val = k.val; omega
    exact congrArg (V m c main_arg1) h
  · show V m c main_v2 (((cfg0.win 2).blk t).view.emb (ix2 k (j 1))) = V m c main_v2 (ix2 k ((((cfg0.win 4).blk t).view.emb j) 1))
    have h : ((cfg0.win 2).blk t).view.emb (ix2 k (j 1)) = ix2 k ((((cfg0.win 4).blk t).view.emb j) 1) := by
      funext a; apply Fin.ext
      match a with
      | ⟨0, _⟩ => show win0_2.index t (0 : Fin 2) * 128 + 1 * k.val = k.val; omega
      | ⟨1, _⟩ => show win0_2.index t (1 : Fin 2) * 256 + 1 * (j 1).val = win0_4.index t (1 : Fin 2) * 256 + 1 * (j 1).val; omega
    exact congrArg (V m c main_v2) h
  · show V m c main_v4 (((cfg0.win 3).blk t).view.emb (ix2 k (j 1))) = V m c main_v4 (ix2 k ((((cfg0.win 4).blk t).view.emb j) 1))
    have h : ((cfg0.win 3).blk t).view.emb (ix2 k (j 1)) = ix2 k ((((cfg0.win 4).blk t).view.emb j) 1) := by
      funext a; apply Fin.ext
      match a with
      | ⟨0, _⟩ => show win0_3.index t (0 : Fin 2) * 128 + 1 * k.val = k.val; omega
      | ⟨1, _⟩ => show win0_3.index t (1 : Fin 2) * 256 + 1 * (j 1).val = win0_4.index t (1 : Fin 2) * 256 + 1 * (j 1).val; omega
    exact congrArg (V m c main_v4) h

/-- An index of the output array is in point `t`'s block iff each coordinate is in the block's range on its axis. -/
theorem mem_block (t : Fin cfg0.N) (i : S262144x256.Idx) :
    i ∈ ((cfg0.win 4).blk t).view.set ↔ ∀ a : Fin 2, win0_4.index t a * S4096x256.size a ≤ (i a).val ∧ (i a).val < win0_4.index t a * S4096x256.size a + S4096x256.size a := by
  show i ∈ ((View.whole main_v5).slice (win0_4.rect t)).set ↔ _
  rw [View.set_slice_whole, Rect.mem_set_unit]
  exact Iff.rfl

/-- Every entry of the output array lies in the block of the point that owns its row: row `r` in block `r / 4096`. -/
theorem covered (i : S262144x256.Idx) :
    ∃ t : Fin cfg0.N, (cfg0.win 4).flush t = true ∧ i ∈ ((cfg0.win 4).blk t).view.set := by
  have hi0 : (i 0).val < 262144 := (i 0).isLt
  have hi1 : (i 1).val < 256 := (i 1).isLt
  obtain ⟨t, ht⟩ := block_onto ⟨(i 0).val / 4096, by omega⟩
  have q0 : win0_4.index t (0 : Fin 2) = (i 0).val / 4096 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 256 ≤ (i 1).val ∧ (i 1).val < win0_4.index t (1 : Fin 2) * 256 + 256; omega

/-- The output array after the run: the row features of the arrays as the region finds them. -/
theorem final (c : Dev nD) :
    (dats m 0 c).arrAt 4 cfg0.N = rowFeatures (V m c main_v0) (V m c main_arg1) (V m c main_v2) (V m c main_v4) :=
  (dats m 0 c).arrAt_eq_of_cover 4 _ (fun t _ => flushed_eq m c t) covered

end Cert.KernelIdeal.Tiles

end
-- ==== Proof.Features.lean ====
/-
  The whole Fourier feature map: the result both programs end holding.

  For times `t` of shape [64, 4096] (batch × position), frequencies `f` of shape [128] and amplitude matrices `a`,
  `b` of shape [256, 128] (channel × frequency), the result has shape [64, 4096, 256], and its entry at
  (batch `p`, position `q`, channel `c`) is `Fourier.entry` of the time `t (p, q)` with row `c` of each amplitude matrix.
-/
import proofs.«171929_j72069551227165_1_alg».proof.Proof.Fourier
import Idealize.ShloMosaic.Lib.ValueIdx

noncomputable section

namespace Cert.Fourier

open Idealize.ShloMosaic Idealize.ShloMosaic.ValueIdx

/-- The feature map: at `(p, q, c)`, the Fourier feature of the time at batch `p` and position `q` for channel `c`. -/
def features (t : (⟨2, ![64, 4096]⟩ : Shape).Idx → EReal) (f : (⟨1, ![128]⟩ : Shape).Idx → EReal)
    (a b : (⟨2, ![256, 128]⟩ : Shape).Idx → EReal) : (⟨3, ![64, 4096, 256]⟩ : Shape).Idx → EReal :=
  fun i => entry (Ideal.ofBits .f32 0x40C90FDB#32) (t (ix2 (i 0) (i 1))) (fun k => f (ix1 k))
    (fun k => a (ix2 (i 2) k)) (fun k => b (ix2 (i 2) k))

/-- The feature map at named coordinates. -/
theorem features_apply (t : (⟨2, ![64, 4096]⟩ : Shape).Idx → EReal) (f : (⟨1, ![128]⟩ : Shape).Idx → EReal)
    (a b : (⟨2, ![256, 128]⟩ : Shape).Idx → EReal) (p : Fin 64) (q : Fin 4096) (c : Fin 256) :
    features t f a b (ix3 p q c)
      = entry (Ideal.ofBits .f32 0x40C90FDB#32) (t (ix2 p q)) (fun k => f (ix1 k)) (fun k => a (ix2 c k)) (fun k => b (ix2 c k)) := rfl

end Cert.Fourier

end
-- ==== Proof.Whole.lean ====
/-
  The kernel program end to end: what its result array holds after the run.

  Before the region the host flattens the times [64, 4096] to [262144] and transposes each amplitude matrix
  [256, 128] to [128, 256] (narrowing its float format, which is the identity on the extended reals); after it the
  host reshapes the region's [262144, 256] array to [64, 4096, 256]. Flattened row `4096 p + q` is time `(p, q)`,
  entry `(k, c)` of a transposed matrix is entry `(c, k)` of the matrix, and entry `(p, q, c)` of the reshaped
  result is entry `(4096 p + q, c)` of the region's array: so the row features of the flattened and transposed
  arrays, reshaped, are the feature map of the arguments.
-/
import proofs.«171929_j72069551227165_1_alg».proof.Proof.Tiles
import proofs.«171929_j72069551227165_1_alg».proof.Proof.Features
import Idealize.ShloMosaic.Lib.StableHlo.Run
import Idealize.ShloMosaic.Lib.ValueLayout

noncomputable section

namespace Cert.KernelIdeal.Whole

open Cert.KernelIdeal Cert.KernelIdeal.Gen Cert.KernelIdeal.Rows
open Idealize.ShloMosaic Idealize.ShloMosaic.TcCoe Idealize.ShloMosaic.ValueIdx Idealize.SL.Sem Idealize.ShloMosaic.StableHlo

/-! ## The layout operations, read at an index -/

/-- The row features at a named row and channel. -/
theorem rowFeatures_apply (tf : FVec Ideal S262144 .f32) (f : FVec Ideal S128 .f32) (a b : FVec Ideal S128x256 .bf16)
    (r : Fin 262144) (ch : Fin 256) :
    rowFeatures tf f a b (ix2 r ch)
      = Fourier.entry (Ideal.ofBits .f32 0x40C90FDB#32) (tf (ix1 r)) (fun k => f (ix1 k)) (fun k => a (ix2 k ch)) (fun k => b (ix2 k ch)) := rfl

/-- The flattened times at row `4096 p + q` are the times at `(p, q)`. -/
theorem flat_apply (t : FVec Ideal S64x4096 .f32) (p : Fin 64) (q : Fin 4096) (h : p.val * 4096 + q.val < 262144) :
    shapeCast S262144 t shapeCasts_S64x4096_S262144 (ix1 (⟨p.val * 4096 + q.val, h⟩ : Fin 262144)) = t (ix2 p q) :=
  shapeCast_apply t shapeCasts_S64x4096_S262144 _ _ (by rw [Shape.rowMajor_val_two, Shape.rowMajor_val_one]; rfl)

/-- A transposed (and narrowed) amplitude matrix at `(k, ch)` is the matrix at `(ch, k)`. -/
theorem ampT_apply (a : FVec Ideal S256x128 .f32) (k : Fin 128) (ch : Fin 256) :
    truncf .bf16 (transpose S128x256 [1, 0] a transposes_S256x128_S128x256_1_0) bitsLt_bf16_f32 (ix2 k ch) = a (ix2 ch k) := by
  rw [truncf_apply, transpose_ix2_apply]

/-- The reshaped array at `(p, q, ch)` is the region's array at row `4096 p + q`, channel `ch`. -/
theorem unflat_apply (X : S262144x256.Idx → EReal) (p : Fin 64) (q : Fin 4096) (ch : Fin 256) (h : p.val * 4096 + q.val < 262144) :
    shapeCast S64x4096x256 X shapeCasts_S262144x256_S64x4096x256 (ix3 p q ch) = X (ix2 (⟨p.val * 4096 + q.val, h⟩ : Fin 262144) ch) :=
  shapeCast_apply X shapeCasts_S262144x256_S64x4096x256 _ _ (by rw [Shape.rowMajor_val_two, Shape.rowMajor_val_three]; rfl)

/-- The row features of the flattened times and the transposed amplitudes, reshaped, are the feature map. -/
theorem unflatten (t : FVec Ideal S64x4096 .f32) (f : FVec Ideal S128 .f32) (a b : FVec Ideal S256x128 .f32) :
    shapeCast S64x4096x256
      (rowFeatures (shapeCast S262144 t shapeCasts_S64x4096_S262144) f
        (truncf .bf16 (transpose S128x256 [1, 0] a transposes_S256x128_S128x256_1_0) bitsLt_bf16_f32)
        (truncf .bf16 (transpose S128x256 [1, 0] b transposes_S256x128_S128x256_1_0) bitsLt_bf16_f32))
      shapeCasts_S262144x256_S64x4096x256
    = Fourier.features t f a b := by
  funext i
  obtain ⟨p, q, ch, rfl⟩ : ∃ (p : Fin 64) (q : Fin 4096) (ch : Fin 256), i = ix3 p q ch := ⟨i 0, i 1, i 2, eq_ix3 i⟩
  have hr : p.val * 4096 + q.val < 262144 := by have := p.isLt; have := q.isLt; omega
  rw [unflat_apply _ p q ch hr, rowFeatures_apply, flat_apply t p q hr, Fourier.features_apply]
  exact congrArg₂ (Fourier.entry _ _ _) (funext fun k => ampT_apply a k ch) (funext fun k => ampT_apply b k ch)

/-! ## The arrays the region finds, and the result after the host's last reshape -/

variable (m : (ℓ : Loc nD τ sig) → Buf (Elt Ideal) ℓ)

/-- The region finds the times flattened. -/
theorem flat_time (c : Dev nD) :
    (V m c main_v0 : S262144.Idx → EReal) = shapeCast S262144 (m ((c : Thread nD τ).loc main_arg0) : S64x4096.Idx → EReal) shapeCasts_S64x4096_S262144 := by
  show StableHlo.after hostOps0 (fun b => m (c, b)) (Proc.devRef .tc main_v0) = _
  after_results
  rfl
/-- The region finds the sine amplitudes transposed. -/
theorem sin_amp (c : Dev nD) :
    (V m c main_v2 : S128x256.Idx → EReal)
      = truncf (F := Ideal) .bf16 (transpose S128x256 [1, 0] (m ((c : Thread nD τ).loc main_arg2) : S256x128.Idx → EReal) transposes_S256x128_S128x256_1_0) bitsLt_bf16_f32 := by
  show StableHlo.after hostOps0 (fun b => m (c, b)) (Proc.devRef .tc main_v2) = _
  after_results
/-- The region finds the cosine amplitudes transposed. -/
theorem cos_amp (c : Dev nD) :
    (V m c main_v4 : S128x256.Idx → EReal)
      = truncf (F := Ideal) .bf16 (transpose S128x256 [1, 0] (m ((c : Thread nD τ).loc main_arg3) : S256x128.Idx → EReal) transposes_S256x128_S128x256_1_0) bitsLt_bf16_f32 := by
  show StableHlo.after hostOps0 (fun b => m (c, b)) (Proc.devRef .tc main_v4) = _
  after_results

/-- The region's output array after the run, among the arrays the host's last line reads. -/
theorem region_array (c : Dev nD) :
    Pipeline.withArrays (cfgs 0).spec c (V0 m c) (fun w => (dats m 0 c).arrAt w (cfgs 0).N) (Proc.devRef .tc main_v5)
      = rowFeatures (V m c main_v0) (V m c main_arg1) (V m c main_v2) (V m c main_v4) :=
  (Pipeline.withArrays_arr spec0 launch0.win.arr_inj c _ _ 4).trans (Tiles.final m c)

/-- The program's result: the feature map of the arguments as launched. -/
theorem result_eq (c : Dev nD) :
    (Pipeline.afterTail₀ cfgs (dats m) 0 (V0 m) [hostOps1] c main_v6 : S64x4096x256.Idx → EReal)
      = Fourier.features (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v6) = _
  after_results
  refine Eq.trans (b := shapeCast S64x4096x256
      (Pipeline.withArrays (cfgs 0).spec c (V0 m c) (fun w => (dats m 0 c).arrAt w (cfgs 0).N) (Proc.devRef .tc main_v5))
      shapeCasts_S262144x256_S64x4096x256) rfl ?_
  rw [region_array, flat_time, sin_amp, cos_amp, V_main_arg1]
  exact unflatten _ _ _ _

/-! ## The run, read -/

/-- Every weakly fair execution of the program terminates with its result array at the feature map of the
    arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v6)
        = Fourier.features (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefFeatures.lean ====
/-
  The reference computes the feature map.

  The reference forms the phases `(w · t (p, q)) · f k` as a [64, 4096, 128] array (the scaled times broadcast along
  the frequencies, the frequencies along batch and position), takes sines and cosines, contracts each over the
  frequency axis against an amplitude matrix [256, 128] (channel × frequency), and adds. Read one operation at a
  time at `(p, q, c)` that is `Fourier.entry` of `t (p, q)` with row `c` of each matrix: the contraction is the plain
  sum over the 128 frequencies, and every layout operation on the way reads its operand at the evident index.
-/
import proofs.«171929_j72069551227165_1_alg».proof.Proof.Gen.ReferenceIdeal.Read
import proofs.«171929_j72069551227165_1_alg».proof.Proof.Features

noncomputable section

namespace Cert.ReferenceIdeal.RefFeatures

open Cert.ReferenceIdeal Cert.ReferenceIdeal.Read Idealize.ShloMosaic Idealize.ShloMosaic.ValueIdx

/-- The phase array at `(p, q, k)` reads the time at `(p, q)`. -/
theorem time_idx (p : Fin 64) (q : Fin 4096) (c : Fin 256) (k : Fin 128) :
    idx_main_v0 (idx_main_v4 (lidx_main_v8 (ix3 p q c) k)) = ix2 p q :=
  funext fun a => Fin.ext (by match a with | ⟨0, _⟩ => rfl | ⟨1, _⟩ => rfl)
/-- The phase array at `(p, q, k)` reads frequency `k`. -/
theorem freq_idx (p : Fin 64) (q : Fin 4096) (c : Fin 256) (k : Fin 128) :
    idx_main_v3 (idx_main_v5 (lidx_main_v8 (ix3 p q c) k)) = ix1 k :=
  funext fun a => Fin.ext (by match a with | ⟨0, _⟩ => rfl)
/-- The contraction at `(p, q, c)` reads row `c` of the amplitude matrix, at column `k`. -/
theorem amp_idx (p : Fin 64) (q : Fin 4096) (c : Fin 256) (k : Fin 128) :
    ridx_main_v8 (ix3 p q c) k = ix2 c k :=
  funext fun a => Fin.ext (by match a with | ⟨0, _⟩ => rfl | ⟨1, _⟩ => rfl)

/-- The phase the reference feeds its sine and cosine, at `(p, q, k)`. -/
theorem phase_apply (x0 : (⟨S64x4096, .f32⟩ : BufTy).Contents (Elt Ideal)) (x1 : (⟨S128, .f32⟩ : BufTy).Contents (Elt Ideal))
    (p : Fin 64) (q : Fin 4096) (c : Fin 256) (k : Fin 128) :
    val_main_v6 (F := Ideal) x0 x1 (lidx_main_v8 (ix3 p q c) k)
      = (Ideal.ofBits .f32 0x40C90FDB#32 * x0 (ix2 p q)) * x1 (ix1 k) := by
  rw [val_main_v6_apply, val_main_v4_apply, val_main_v2_apply, val_main_v1_apply, val_main_cst_apply, val_main_v0_apply,
    val_main_v5_apply, val_main_v3_apply, time_idx, freq_idx]
  rfl

/-- The reference's result is the feature map of its arguments. -/
theorem result_eq (x0 : (⟨S64x4096, .f32⟩ : BufTy).Contents (Elt Ideal)) (x1 : (⟨S128, .f32⟩ : BufTy).Contents (Elt Ideal))
    (x2 x3 : (⟨S256x128, .f32⟩ : BufTy).Contents (Elt Ideal)) :
    val_main_v11 (F := Ideal) x0 x1 x2 x3 = Fourier.features x0 x1 x2 x3 := by
  funext i
  obtain ⟨p, q, c, rfl⟩ : ∃ (p : Fin 64) (q : Fin 4096) (c : Fin 256), i = ix3 p q c := ⟨i 0, i 1, i 2, eq_ix3 i⟩
  rw [val_main_v11_apply, val_main_v8_apply, val_main_v10_apply, Fourier.features_apply]
  unfold Fourier.entry
  refine congrArg₂ (· + ·) (Finset.sum_congr rfl fun k _ => ?_) (Finset.sum_congr rfl fun k _ => ?_)
  · rw [val_main_v7_apply, phase_apply, amp_idx]
    rfl
  · show val_main_v9 (F := Ideal) x0 x1 (lidx_main_v8 (ix3 p q c) k) * x3 (ridx_main_v8 (ix3 p q c) k) = _
    rw [val_main_v9_apply, phase_apply, amp_idx]
    rfl

end Cert.ReferenceIdeal.RefFeatures

end
-- ==== Proof.lean ====
/-
  A Fourier feature map computed two ways gives one result on the extended reals.

  Inputs: times `t` [64, 4096], frequencies `f` [128], sine amplitudes `amp_sin` and cosine amplitudes `amp_cos`
  [256, 128] (channel × frequency). Result [64, 4096, 256]:

      out (p, q, c) = Σ_k sin((w · t (p, q)) · f k) · amp_sin (c, k)  +  Σ_k cos((w · t (p, q)) · f k) · amp_cos (c, k),

  `w` the binary32 word nearest 2π, the same word in both programs.

  The kernel flattens batch and position to 262144 rows, transposes the amplitude matrices to frequency × channel,
  and on a grid of 64 points computes 4096 rows at a time: the phases as a [4096, 128] matrix, their sines and
  cosines, two matrix products into zero accumulators, and their sum; the host reshapes the rows back. The
  reference forms the phases as a [64, 4096, 128] array and contracts sines and cosines over the frequency axis
  against the untransposed matrices. Entry by entry both are the two sums above, with the same association of the
  phase and the same order of the 128 terms: a matrix product into zero and a host contraction are the plain sum over
  the contracted axis, a change of float format is the identity, and a reshape, transpose or broadcast only
  renames indices. No algebraic law is needed to join the two sides, so the finiteness of the inputs is not used.

  The modules: `Fourier` (one entry), `Features` (the whole map), `Payload` (the kernel body at an index), `Rows` and
  `Tiles` (the kernel's output array from its 64 blocks), `Whole` (the host operations around the region, and the run),
  `RefFeatures` (the reference). The three programs' termination and the arguments' preservation come from the
  generated frame modules and the reference's generated run; the idealization rewrote nothing, so `preserves` is trivial.
-/
import proofs.«171929_j72069551227165_1_alg».proof.Defs
import proofs.«171929_j72069551227165_1_alg».proof.Proof.Gen.Kernel
import proofs.«171929_j72069551227165_1_alg».proof.Proof.Gen.Kernel.Skeleton
import proofs.«171929_j72069551227165_1_alg».proof.Proof.Gen.Kernel.Launch
import proofs.«171929_j72069551227165_1_alg».proof.Proof.Gen.Kernel.Points
import proofs.«171929_j72069551227165_1_alg».proof.Proof.Gen.Kernel.Frame
import proofs.«171929_j72069551227165_1_alg».proof.Proof.Gen.KernelIdeal
import proofs.«171929_j72069551227165_1_alg».proof.Proof.Gen.KernelIdeal.Skeleton
import proofs.«171929_j72069551227165_1_alg».proof.Proof.Gen.KernelIdeal.Launch
import proofs.«171929_j72069551227165_1_alg».proof.Proof.Gen.KernelIdeal.Points
import proofs.«171929_j72069551227165_1_alg».proof.Proof.Gen.KernelIdeal.Frame
import proofs.«171929_j72069551227165_1_alg».proof.Proof.Gen.ReferenceIdeal
import proofs.«171929_j72069551227165_1_alg».proof.Proof.Gen.Pre_finite_inputs
import proofs.«171929_j72069551227165_1_alg».proof.Proof.Gen.ReferenceIdeal.Run
import proofs.«171929_j72069551227165_1_alg».proof.Proof.Gen.ReferenceIdeal.Read
import proofs.«171929_j72069551227165_1_alg».proof.Proof.Whole
import proofs.«171929_j72069551227165_1_alg».proof.Proof.RefFeatures
import Idealize.ShloMosaic.Adequacy
import Idealize.ShloMosaic.Init

noncomputable section

namespace Cert.Proof

open Idealize.ShloMosaic Idealize.SL.Sem Cert.Kernel

/-- The kernel as printed terminates and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array and the reference's both end at the Fourier
    feature map of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefFeatures.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
